-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x5 : Shape := ⟨3, ![4096, 64, 5]⟩
abbrev S_ : Shape := ⟨0, ![]⟩

class Facts : Prop where
  bcast_S_S4096x64x5 : S_.BroadcastsInDim S4096x64x5 (![] : Fin 0 → Fin S4096x64x5.rank)
  reducesTo_S4096x64x5_S_d0_1_2 : S4096x64x5.ReducesTo [0, 1, 2] S_
  h_S_ : 0 < S_.numel

variable [Facts]

def fn {F : FTy → Type} [FloatOps F] (main_arg0 : FVec F S4096x64x5 .f32) : IVec S_ 1 :=
  let main_v0 : FVec F S4096x64x5 .f32 := Host.absf main_arg0
  let main_cst : FVec F S_ .f32 := constant S_ .f32 0x7F800000#32
  let main_v1 : FVec F S4096x64x5 .f32 := broadcastInDim S4096x64x5 ![] bcast_S_S4096x64x5 main_cst
  let main_v2 : IVec S4096x64x5 1 := cmpf .olt main_v0 main_v1
  let main_c : IVec S_ 1 := constantI S_ 1 1#1
  let main_v3 : IVec S_ 1 := (fun x v => Host.reduce IntOp.andi x v reducesTo_S4096x64x5_S_d0_1_2 h_S_) main_v2 main_c
  main_v3
-- ==== Kernel.lean ====
abbrev S4096x64x5 : Shape := ⟨3, ![4096, 64, 5]⟩
abbrev S4096x320 : Shape := ⟨2, ![4096, 320]⟩
abbrev S4096x64 : Shape := ⟨2, ![4096, 64]⟩
abbrev S4096x64x64 : Shape := ⟨3, ![4096, 64, 64]⟩
abbrev S256x320 : Shape := ⟨2, ![256, 320]⟩
abbrev S256x64 : Shape := ⟨2, ![256, 64]⟩
abbrev S256x64x64 : Shape := ⟨3, ![256, 64, 64]⟩
abbrev S320x64 : Shape := ⟨2, ![320, 64]⟩
abbrev S256x64x1 : Shape := ⟨3, ![256, 64, 1]⟩
abbrev S256x1x64 : Shape := ⟨3, ![256, 1, 64]⟩

abbrev nBuf : Space → Nat
  | .hbm => 4
  | .vmem => 6
  | .smem => 0
  | _ => 0

abbrev bufTy : (tb : Table) → Fin (tcTables nBuf tb) → BufTy
  | .hbm, ⟨0, _⟩ => ⟨S4096x64x5, .f32⟩
  | .hbm, ⟨1, _⟩ => ⟨S4096x320, .f32⟩
  | .hbm, ⟨2, _⟩ => ⟨S4096x64, .f32⟩
  | .hbm, ⟨3, _⟩ => ⟨S4096x64x64, .f32⟩
  | .local _ .vmem, ⟨0, _⟩ => ⟨S256x320, .f32⟩
  | .local _ .vmem, ⟨1, _⟩ => ⟨S256x320, .f32⟩
  | .local _ .vmem, ⟨2, _⟩ => ⟨S256x64, .f32⟩
  | .local _ .vmem, ⟨3, _⟩ => ⟨S256x64, .f32⟩
  | .local _ .vmem, ⟨4, _⟩ => ⟨S256x64x64, .f32⟩
  | .local _ .vmem, ⟨5, _⟩ => ⟨S256x64x64, .f32⟩
  | _, _ => ⟨S4096x64x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x64x5_S4096x320 : S4096x64x5.ShapeCasts S4096x320
  inb_S256x320_S256x320_0_0 : ∀ a, (![0, 0] : Fin 2 → Nat) a + S256x320.size a ≤ S256x320.size a
  h_S256x320 : 0 < S256x320.numel
  shapeCasts_S256x320_S256x320 : S256x320.ShapeCasts S256x320
  iota_S320x64_d0_w32 : S320x64.Iotas .tc 32 [0]
  iota_S320x64_d1_w32 : S320x64.Iotas .tc 32 [1]
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64_S256x1x64 : S256x64.ShapeCasts S256x1x64
  broadcasts_S256x64x1_S256x64x64 : S256x64x1.Broadcasts S256x64x64
  broadcasts_S256x1x64_S256x64x64 : S256x1x64.Broadcasts S256x64x64
  inb_S256x64x64_S256x64x64_0_0_0 : ∀ a, (![0, 0, 0] : Fin 3 → Nat) a + S256x64x64.size a ≤ S256x64x64.size a
  h_S256x64x64 : 0 < S256x64x64.numel
  dot_S256x320_S320x64_S256x64_1_0_0_1_n_n_wf : DotDims.WF S256x320 S320x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x320.size a ≤ S4096x320.size a
  hwx0_0 : ∀ i : grid0.Coords, EltTy.bits .f32 = 32 ∨ (Rect.block (s := S4096x320) S256x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64x64.size a ≤ S4096x64x64.size a
  hwx0_2 : ∀ i : grid0.Coords, EltTy.bits .f32 = 32 ∨ (Rect.block (s := S4096x64x64) S256x64x64.size (cc0_transform_2 i) (hinb0_2 i)).WholeWords (EltTy.packing .f32)

variable [Facts₀]

def dot_S256x320_S320x64_S256x64_1_0_0_1_n_n : DotDims S256x320 S320x64 S256x64 where
  lhsContracting := [1]
  rhsContracting := [0]
  lhsNonContracting := [0]
  rhsNonContracting := [1]
  lhsBatch := []
  rhsBatch := []
  wf := dot_S256x320_S320x64_S256x64_1_0_0_1_n_n_wf

abbrev win0_0 : Pipeline.Window sig grid0 :=
  Pipeline.Window.ofSpec (Memref.whole main_v0) S256x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64x5 : Shape := ⟨3, ![4096, 64, 5]⟩
abbrev S4096x64x1 : Shape := ⟨3, ![4096, 64, 1]⟩
abbrev S4096x64 : Shape := ⟨2, ![4096, 64]⟩
abbrev S_ : Shape := ⟨0, ![]⟩
abbrev S4096x64x64 : Shape := ⟨3, ![4096, 64, 64]⟩
abbrev S4096x1x64 : Shape := ⟨3, ![4096, 1, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096x64x5, .f32⟩
  | .hbm, ⟨1, _⟩ => ⟨S4096x64x1, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .i1⟩
  | .hbm, ⟨6, _⟩ => ⟨S_, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .i1⟩
  | .hbm, ⟨14, _⟩ => ⟨S_, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .i1⟩
  | .hbm, ⟨22, _⟩ => ⟨S_, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S_, .f32⟩
  | .hbm, ⟨42, _⟩ => ⟨S4096x64, .f32⟩
  | .hbm, ⟨43, _⟩ => ⟨S4096x64, .f32⟩
  | .hbm, ⟨44, _⟩ => ⟨S_, .f32⟩
  | .hbm, ⟨45, _⟩ => ⟨S4096x64x64, .f32⟩
  | .hbm, ⟨46, _⟩ => ⟨S4096x64x1, .f32⟩
  | .hbm, ⟨47, _⟩ => ⟨S_, .f32⟩
  | .hbm, ⟨48, _⟩ => ⟨S4096x64x1, .f32⟩
  | .hbm, ⟨49, _⟩ => ⟨S4096x64x1, .f32⟩
  | .hbm, ⟨50, _⟩ => ⟨S4096x1x64, .f32⟩
  | .hbm, ⟨51, _⟩ => ⟨S4096x64x64, .f32⟩
  | .hbm, ⟨52, _⟩ => ⟨S4096x64x64, .f32⟩
  | .hbm, ⟨53, _⟩ => ⟨S4096x64x64, .f32⟩
  | .hbm, ⟨54, _⟩ => ⟨S4096x64x64, .f32⟩
  | .hbm, ⟨55, _⟩ => ⟨S4096x64x64, .f32⟩
  | .hbm, ⟨56, _⟩ => ⟨S4096x64x1, .f32⟩
  | .hbm, ⟨57, _⟩ => ⟨S_, .f32⟩
  | .hbm, ⟨58, _⟩ => ⟨S4096x64x1, .f32⟩
  | .hbm, ⟨59, _⟩ => ⟨S4096x64x1, .f32⟩
  | .hbm, ⟨60, _⟩ => ⟨S4096x1x64, .f32⟩
  | .hbm, ⟨61, _⟩ => ⟨S4096x64x64, .f32⟩
  | .hbm, ⟨62, _⟩ => ⟨S4096x64x64, .f32⟩
  | .hbm, ⟨63, _⟩ => ⟨S4096x64x64, .f32⟩
  | .hbm, ⟨64, _⟩ => ⟨S4096x64x64, .f32⟩
  | .hbm, ⟨65, _⟩ => ⟨S4096x64x64, .f32⟩
  | _, _ => ⟨S4096x64x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_cst_7 : Ref sig .tc := ⟨.hbm, 23, rfl⟩
abbrev main_call2_v0 : Ref sig .tc := ⟨.hbm, 24, rfl⟩
abbrev main_call2_v1 : Ref sig .tc := ⟨.hbm, 25, rfl⟩
abbrev main_v10 : Ref sig .tc := ⟨.hbm, 26, rfl⟩
abbrev main_cst_8 : Ref sig .tc := ⟨.hbm, 27, rfl⟩
abbrev main_v11 : Ref sig .tc := ⟨.hbm, 28, rfl⟩
abbrev main_v12 : Ref sig .tc := ⟨.hbm, 29, rfl⟩
abbrev main_cst_9 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_10 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_11 : Ref sig .tc := ⟨.hbm, 38, rfl⟩
abbrev main_v19 : Ref sig .tc := ⟨.hbm, 39, rfl⟩
abbrev main_v20 : Ref sig .tc := ⟨.hbm, 40, rfl⟩
abbrev main_cst_12 : Ref sig .tc := ⟨.hbm, 41, rfl⟩
abbrev main_v21 : Ref sig .tc := ⟨.hbm, 42, rfl⟩
abbrev main_v22 : Ref sig .tc := ⟨.hbm, 43, rfl⟩
abbrev main_cst_13 : Ref sig .tc := ⟨.hbm, 44, rfl⟩
abbrev main_v23 : Ref sig .tc := ⟨.hbm, 45, rfl⟩
abbrev main_v24 : Ref sig .tc := ⟨.hbm, 46, rfl⟩
abbrev main_cst_14 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_15 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]

class Facts₀ : Prop where
  slices_S4096x64x5_S4096x64x1_0_0_4 : S4096x64x5.Slices ![0, 0, 4] S4096x64x1
  shapeCasts_S4096x64x1_S4096x64 : S4096x64x1.ShapeCasts S4096x64
  bcast_S_S4096x64 : S_.BroadcastsInDim S4096x64 (![] : Fin 0 → Fin S4096x64.rank)
  bcast_S_S4096x64x64 : S_.BroadcastsInDim S4096x64x64 (![] : Fin 0 → Fin S4096x64x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)

variable [Facts₀]

class Facts : Prop extends Facts₀ where

variable [Facts]
-- ==== Proof.Indicators.lean ====
/-
  The arithmetic of the three indicator arrays, on the extended reals.

  Both programs turn the type id `t` of an object slot into three indicators, each `1` or `0`:
  car (`t = 2`), goal (`t = 3`) and player (`t = 1`). The pairwise bias is written in two ways.
  The kernel multiplies the player indicator of row `i` by `c · (goal_j − car_j)`; the reference
  starts from zero, subtracts `(c · player_i) · car_j` and adds `(c · player_i) · goal_j`. With every
  indicator `0` or `1` and `c` a finite real both are `c · player_i · (goal_j − car_j)`: the law
  below, proved by cases on the three indicators, each case an identity of real numbers.
  (Finiteness of `c` matters only where goal and car are both `1`: there the reference forms
  `−c + c`, which is `0` for a real `c` and not for an infinity.)
-/
import Idealize.ShloMosaic.PureOps.Ideal
import Idealize.ShloMosaic.PureOps.Ideal.Laws

noncomputable section

namespace Cert.Bias

open Idealize.ShloMosaic

/-- The pattern of `1.0` denotes the extended real `1`. -/
theorem one_f32 : Ideal.ofBits .f32 0x3F800000#32 = 1 := by
  simp [Ideal.ofBits, Ideal.ieee, -EReal.coe_mul]; norm_num

/-- The pattern both programs spell for `0.8` denotes a finite real (its exact value is never needed:
    the same pattern stands on both sides). -/
theorem scale_real : ∃ r : ℝ, Ideal.ofBits .f32 0x3F4CCCCD#32 = (r : EReal) := by
  simp [Ideal.ofBits, Ideal.ieee, -EReal.coe_mul]

/-- The two spellings of the pairwise bias agree: for a finite `c` and indicators chosen by any three bits,
    `p · (c · (g − r)) = (0 − (c · p) · r) + (c · p) · g`. -/
theorem pair_law (c : EReal) (hc : ∃ r : ℝ, c = (r : EReal)) (bp bg br : BitVec 1) :
    Scalar.select bp (1 : EReal) 0 * (c * (Scalar.select bg (1 : EReal) 0 - Scalar.select br (1 : EReal) 0))
      = ((0 : EReal) - (c * Scalar.select bp (1 : EReal) 0) * Scalar.select br (1 : EReal) 0)
        + (c * Scalar.select bp (1 : EReal) 0) * Scalar.select bg (1 : EReal) 0 := by
  obtain ⟨r, rfl⟩ := hc
  unfold Scalar.select
  split_ifs <;>
    simp only [← EReal.coe_one, ← EReal.coe_zero, ← EReal.coe_sub, ← EReal.coe_mul, ← EReal.coe_add] <;>
    exact congrArg _ (by ring)

end Cert.Bias

end
-- ==== Proof.Selection.lean ====
/-
  The type id of a slot, as the kernel extracts it.

  The kernel sees a block of the input with its last two axes merged, a row of 320 = 64 · 5 numbers per
  batch element, and multiplies it by a 320 × 64 matrix `E` built from two iotas:
  `E[k, q] = 1` when `k = 5 · q + 4` and `0` otherwise. Column `q` of the product is therefore the sum over
  `k` of `x[p, k] · E[k, q]`, in which every term but the one at `k = 5 · q + 4` is a product with `0`:
  the product picks out `x[p, 5 · q + 4]`, field 4 of slot `q`. On the extended reals `x · 0 = 0` for every
  `x`, so this needs no finiteness of the input.
  The integer side is 32-bit arithmetic on indices below 320, where nothing wraps.
-/
import proofs.«152834_g5325759447573_cont_9to1_m_770_4_alg».proof.Proof.Gen.KernelIdeal.Skeleton
import proofs.«152834_g5325759447573_cont_9to1_m_770_4_alg».proof.Proof.Indicators
import Idealize.ShloMosaic.Lib.ValueIdx
import Idealize.ShloMosaic.Lib.Pipeline.Value
import Idealize.ShloMosaic.PureOps.Ideal.Laws

noncomputable section

namespace Cert.KernelIdeal.Selection

open Cert.KernelIdeal Cert.KernelIdeal.Gen Idealize.ShloMosaic Idealize.ShloMosaic.ValueIdx

/-! ## The matrix product's operand indices, axis by axis -/

theorem lhs_0 (i : S256x64.Idx) (q : dot_S256x320_S320x64_S256x64_1_0_0_1_n_n.contr.Idx) :
    (dot_S256x320_S320x64_S256x64_1_0_0_1_n_n.lhsIdx i q 0).val = (i 0).val := by
  unfold DotDims.lhsIdx
  rw [dif_neg (show ¬(0 : Fin S256x320.rank) ∈ dot_S256x320_S320x64_S256x64_1_0_0_1_n_n.lhsBatch by decide), dif_pos (show (0 : Fin S256x320.rank) ∈ dot_S256x320_S320x64_S256x64_1_0_0_1_n_n.lhsNonContracting by decide)]
  rfl

theorem lhs_1 (i : S256x64.Idx) (q : dot_S256x320_S320x64_S256x64_1_0_0_1_n_n.contr.Idx) :
    (dot_S256x320_S320x64_S256x64_1_0_0_1_n_n.lhsIdx i q 1).val = (q ⟨0, by decide⟩).val :=
  dot_S256x320_S320x64_S256x64_1_0_0_1_n_n.lhsIdx_val_of_single rfl i q

theorem rhs_0 (i : S256x64.Idx) (q : dot_S256x320_S320x64_S256x64_1_0_0_1_n_n.contr.Idx) :
    (dot_S256x320_S320x64_S256x64_1_0_0_1_n_n.rhsIdx i q 0).val = (q ⟨0, by decide⟩).val :=
  dot_S256x320_S320x64_S256x64_1_0_0_1_n_n.rhsIdx_val_of_single rfl i q

theorem rhs_1 (i : S256x64.Idx) (q : dot_S256x320_S320x64_S256x64_1_0_0_1_n_n.contr.Idx) :
    (dot_S256x320_S320x64_S256x64_1_0_0_1_n_n.rhsIdx i q 1).val = (i 1).val := by
  unfold DotDims.rhsIdx
  rw [dif_neg (show ¬(1 : Fin S320x64.rank) ∈ dot_S256x320_S320x64_S256x64_1_0_0_1_n_n.rhsBatch by decide), dif_pos (show (1 : Fin S320x64.rank) ∈ dot_S256x320_S320x64_S256x64_1_0_0_1_n_n.rhsNonContracting by decide)]
  rfl

/-! ## The selection matrix at an entry -/

/-- Where column `q` has its one: row `5 · q + 4`. -/
abbrev pick (q : Fin 64) : Fin 320 := ⟨5 * q.val + 4, by have := q.isLt; omega⟩

/-- The 32-bit test `k = 5 · q + 4` on indices of the 320 × 64 matrix is the test on the numbers. -/
theorem test_eq (k : Fin 320) (q : Fin 64) :
    IntOp.cmpi .eq (BitVec.ofNat 32 (0 * 320 + k.val)) (IntOp.addi (IntOp.muli 5#32 (BitVec.ofNat 32 (0 * 64 + q.val))) 4#32)
      = if k = pick q then 1#1 else 0#1 := by
  have hk := k.isLt
  have hq := q.isLt
  unfold IntOp.cmpi IntOp.addi IntOp.muli
  simp only [Nat.zero_mul, Nat.zero_add]
  have e : 5#32 * BitVec.ofNat 32 q.val + 4#32 = BitVec.ofNat 32 (5 * q.val + 4) := by
    apply BitVec.eq_of_toNat_eq
    simp only [BitVec.toNat_add, BitVec.toNat_mul, BitVec.toNat_ofNat]
    omega
  rw [e]
  by_cases h : k = pick q
  · rw [if_pos h]
    subst h
    rw [show (BitVec.ofNat 32 (pick q).val == BitVec.ofNat 32 (5 * q.val + 4)) = true from beq_self_eq_true _]
    rfl
  · rw [if_neg h]
    have hne : BitVec.ofNat 32 k.val ≠ BitVec.ofNat 32 (5 * q.val + 4) := by
      intro he
      apply h
      apply Fin.ext
      have := congrArg BitVec.toNat he
      simp only [BitVec.toNat_ofNat] at this
      show k.val = 5 * q.val + 4
      omega
    rw [beq_false_of_ne hne]
    rfl

/-- The selection matrix the body builds, at entry `(k, q)`: `1` on `k = 5 · q + 4`, else `0`. -/
theorem sel_entry (k : Fin 320) (q : Fin 64) :
    (select (cmpi .eq (iota .tc S320x64 32 [0] Facts₀.iota_S320x64_d0_w32)
        (addi (muli (broadcast S320x64 5#32) (iota .tc S320x64 32 [1] Facts₀.iota_S320x64_d1_w32)) (broadcast S320x64 4#32)))
      (broadcast S320x64 (Scalar.ofBits (F := Ideal) .f32 0x3F800000#32)) (broadcast S320x64 (Scalar.ofBits (F := Ideal) .f32 0x00000000#32))
      : FVec Ideal S320x64 .f32) (ix2 k q) = if k = pick q then 1 else 0 := by
  show Scalar.select (IntOp.cmpi .eq (BitVec.ofNat 32 (0 * 320 + k.val)) (IntOp.addi (IntOp.muli 5#32 (BitVec.ofNat 32 (0 * 64 + q.val))) 4#32)) (Ideal.ofBits .f32 0x3F800000#32) (Ideal.ofBits .f32 0x00000000#32) = _
  rw [test_eq, Cert.Bias.one_f32, Ideal.ofBits_zero_f32]
  by_cases h : k = pick q
  · rw [if_pos h, if_pos h]; exact select_one _ _
  · rw [if_neg h, if_neg h]; exact select_zero _ _

/-! ## The product picks one entry of each row -/

/-- The operand indices of the product at output `(p, q)` and contraction position `k`: `(p, k)` on the left, `(k, q)` on the right. -/
theorem operands (p : Fin 256) (q : Fin 64) (k : Fin 320) :
    dot_S256x320_S320x64_S256x64_1_0_0_1_n_n.lhsIdx (ix2 p q) ((contrEquiv1 dot_S256x320_S320x64_S256x64_1_0_0_1_n_n 320 rfl rfl).symm k) = ix2 p k
    ∧ dot_S256x320_S320x64_S256x64_1_0_0_1_n_n.rhsIdx (ix2 p q) ((contrEquiv1 dot_S256x320_S320x64_S256x64_1_0_0_1_n_n 320 rfl rfl).symm k) = ix2 k q := by
  have hk := contrEquiv1_symm_val dot_S256x320_S320x64_S256x64_1_0_0_1_n_n 320 rfl rfl k
  constructor
  · exact funext fun a => Fin.ext (by
      match a with
      | ⟨0, _⟩ => exact lhs_0 _ _
      | ⟨1, _⟩ => exact (lhs_1 _ _).trans hk)
  · exact funext fun a => Fin.ext (by
      match a with
      | ⟨0, _⟩ => exact (rhs_0 _ _).trans hk
      | ⟨1, _⟩ => exact rhs_1 _ _)

/-- THE TYPE ID: entry `(p, q)` of the product of a loaded block with the selection matrix is the block's entry
    `(p, 5 · q + 4)`. -/
theorem tid_apply (P0 : Vec Ideal S256x320 .f32) (p : Fin 256) (q : Fin 64) :
    k0_pay3 (F := Ideal) P0 (ix2 p q) = P0 (ix2 p (pick q)) := by
  unfold k0_pay3
  simp only [matmul]
  rw [Ideal.matmul_constant_zero_apply, ← Equiv.sum_comp (contrEquiv1 dot_S256x320_S320x64_S256x64_1_0_0_1_n_n 320 rfl rfl).symm]
  rw [Finset.sum_eq_single (pick q)]
  · rw [(operands p q (pick q)).1, (operands p q (pick q)).2, shapeCast_self, sel_entry, if_pos rfl, mul_one]
  · intro k _ hne
    rw [(operands p q k).1, (operands p q k).2, sel_entry, if_neg hne, mul_zero]
  · intro h; exact absurd (Finset.mem_univ _) h

end Cert.KernelIdeal.Selection

end
-- ==== Proof.Spec.lean ====
/-
  What both programs compute, as two functions of the input array.

  The input `a` has shape [4096, 64, 5]: 4096 batch elements, 64 object slots, 5 fields, the last the slot's type id
  `t = a[b, n, 4]`. From it come three indicators per slot, car `[t = 2]`, goal `[t = 3]` and player `[t = 1]`, and

    alpha[b, n]    = 2 · (0.6 · car[b, n] + 0.3 · goal[b, n] + 0.1 · player[b, n]) − 1
    pair[b, i, j]  = player[b, i] · (0.8 · (goal[b, j] − car[b, j]))

  with every decimal standing for its float pattern (the same pattern in both programs, so its exact value never
  matters). The reference spells the pairwise term as `(0 − (0.8 · player_i) · car_j) + (0.8 · player_i) · goal_j`;
  `pairG_as_reference` is the law that the two spellings agree.
-/
import proofs.«152834_g5325759447573_cont_9to1_m_770_4_alg».proof.Proof.Indicators
import Idealize.ShloMosaic.Lib.ValueIdx

noncomputable section

namespace Cert.Bias

open Idealize.ShloMosaic Idealize.ShloMosaic.ValueIdx

/-- The indicator of `x` being the number the pattern `w` denotes: `1.0` if so, `0.0` if not. -/
def ind (w : BitVec 32) (x : Ideal .f32) : Ideal .f32 :=
  Scalar.select (FloatOps.cmpf (F := Ideal) .oeq x (Ideal.ofBits .f32 w)) (Ideal.ofBits .f32 0x3F800000#32) (Ideal.ofBits .f32 0x00000000#32)

/-- An indicator is a choice between `1` and `0`. -/
theorem ind_eq (w : BitVec 32) (x : Ideal .f32) :
    ind w x = Scalar.select (FloatOps.cmpf (F := Ideal) .oeq x (Ideal.ofBits .f32 w)) (1 : EReal) 0 := by
  unfold ind
  rw [one_f32, Ideal.ofBits_zero_f32]

variable (a : (⟨3, ![4096, 64, 5]⟩ : Shape).Idx → Ideal .f32)

/-- The type id of slot `n` of batch element `b`. -/
def tid (b : Fin 4096) (n : Fin 64) : Ideal .f32 := a (ix3 b n (4 : Fin 5))

def car (b : Fin 4096) (n : Fin 64) : Ideal .f32 := ind 0x40000000#32 (tid a b n)
def goal (b : Fin 4096) (n : Fin 64) : Ideal .f32 := ind 0x40400000#32 (tid a b n)
def player (b : Fin 4096) (n : Fin 64) : Ideal .f32 := ind 0x3F800000#32 (tid a b n)

/-- The per-slot guidance weight, recentred: `2 · (0.6 · car + 0.3 · goal + 0.1 · player) − 1`. -/
def alphaG : (⟨2, ![4096, 64]⟩ : Shape).Idx → Ideal .f32 := fun i =>
  Ideal.ofBits .f32 0x40000000#32 * ((Ideal.ofBits .f32 0x3F19999A#32 * car a (i 0) (i 1) + Ideal.ofBits .f32 0x3E99999A#32 * goal a (i 0) (i 1))
    + Ideal.ofBits .f32 0x3DCCCCCD#32 * player a (i 0) (i 1)) - Ideal.ofBits .f32 0x3F800000#32

/-- The pairwise bias, as the kernel spells it: `player_i · (0.8 · (goal_j − car_j))`. -/
def pairG : (⟨3, ![4096, 64, 64]⟩ : Shape).Idx → Ideal .f32 := fun i =>
  player a (i 0) (i 1) * (Ideal.ofBits .f32 0x3F4CCCCD#32 * (goal a (i 0) (i 2) - car a (i 0) (i 2)))

/-- The reference's spelling of the same number: zero, minus the car term, plus the goal term. -/
theorem pairG_as_reference (i : (⟨3, ![4096, 64, 64]⟩ : Shape).Idx) :
    pairG a i = (Ideal.ofBits .f32 0x00000000#32 - (Ideal.ofBits .f32 0x3F4CCCCD#32 * player a (i 0) (i 1)) * car a (i 0) (i 2))
      + (Ideal.ofBits .f32 0x3F4CCCCD#32 * player a (i 0) (i 1)) * goal a (i 0) (i 2) := by
  unfold pairG player goal car
  rw [ind_eq, ind_eq, ind_eq, Ideal.ofBits_zero_f32]
  exact pair_law _ scale_real _ _ _

end Cert.Bias

end
-- ==== Proof.KernelArrays.lean ====
/-
  The idealized kernel's two result arrays, as functions of the input array.

  One grid point `t` (of 16) handles 256 batch elements. Its input block is rows `256·t … 256·t + 255` of the input
  with the slot and field axes merged (320 columns; column `5·n + 4` is the type id of slot `n`); its output blocks are
  the same 256 rows of the two results. Inside the block the body takes the type ids by the selection product
  (Proof/Selection.lean), forms the three indicators and writes
    alpha[p, q]   = 2 · (0.6 · car_q + 0.3 · goal_q + 0.1 · player_q) − 1
    pair[p, i, j] = player_i · (0.8 · (goal_j − car_j)),
  all of row `p` of the block. So what point `t` writes back is block `t` of the whole-array functions `alphaG` and
  `pairG` of Proof/Spec.lean, and since the 16 blocks tile each result, the arrays end at those functions.
-/
import proofs.«152834_g5325759447573_cont_9to1_m_770_4_alg».proof.Proof.ValueP
import proofs.«152834_g5325759447573_cont_9to1_m_770_4_alg».proof.Proof.Selection
import proofs.«152834_g5325759447573_cont_9to1_m_770_4_alg».proof.Proof.Spec
import Idealize.ShloMosaic.Lib.ValueIdx
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Bias Cert.KernelIdeal.Selection

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Inside one block -/

/-- What the body leaves in the first result's block at `(p, q)`, from the loaded block `x0`: the recentred weight of
    the type id `x0[p, 5·q + 4]`. -/
theorem alpha_block (x0 : Vec Ideal S256x320 .f32) (p : Fin 256) (q : Fin 64) :
    out0_1 x0 (ix2 p q)
      = Ideal.ofBits .f32 0x40000000#32 * ((Ideal.ofBits .f32 0x3F19999A#32 * ind 0x40000000#32 (x0 (ix2 p (pick q)))
          + Ideal.ofBits .f32 0x3E99999A#32 * ind 0x40400000#32 (x0 (ix2 p (pick q))))
          + Ideal.ofBits .f32 0x3DCCCCCD#32 * ind 0x3F800000#32 (x0 (ix2 p (pick q)))) - Ideal.ofBits .f32 0x3F800000#32 := by
  unfold out0_1
  rw [View.canon_unit_zero hz2]
  simp only [View.ld_unit_zero (S := S256x320) hz2]
  rw [← tid_apply x0 p q]
  rfl

/-- What the body leaves in the second result's block at `(p, i, j)`: the player indicator of slot `i` times
    `0.8 · (goal_j − car_j)`. -/
theorem pair_block (x0 : Vec Ideal S256x320 .f32) (p : Fin 256) (i j : Fin 64) :
    out0_2 x0 (ix3 p i j)
      = ind 0x3F800000#32 (x0 (ix2 p (pick i))) * (Ideal.ofBits .f32 0x3F4CCCCD#32
          * (ind 0x40400000#32 (x0 (ix2 p (pick j))) - ind 0x40000000#32 (x0 (ix2 p (pick j))))) := by
  unfold out0_2
  rw [ValueP.canon2_eq]
  simp only [View.ld_unit_zero (S := S256x320) hz2]
  rw [← tid_apply x0 p i, ← tid_apply x0 p j]
  have e0 : ValueP.ix2_0 (ix3 p i j) = ix2 p i := funext fun a => by match a with | ⟨0, _⟩ => rfl | ⟨1, _⟩ => rfl
  have e1 : ValueP.ix2_1 (ix3 p i j) = ix2 p j := funext fun a => by match a with | ⟨0, _⟩ => rfl | ⟨1, _⟩ => rfl
  have e2 : ValueP.ix2_2 (ix3 p i j) = ix2 p j := funext fun a => by match a with | ⟨0, _⟩ => rfl | ⟨1, _⟩ => rfl
  simp only [ValueP.E2, e0, e1, e2]
  rfl

/-! ## The input as the region finds it, and a block of it -/

/-- The one host operation before the region merges the slot and field axes. -/
theorem merged (c : Dev nD) :
    (V m c main_v0 : S4096x320.Idx → Ideal .f32) = shapeCast S4096x320 (m ((c : Thread nD τ).loc main_arg0)) shapeCasts_S4096x64x5_S4096x320 := by
  dsimp only [Gen.V, Gen.hostOps0]; after_results; rfl

/-- Where the three windows' blocks lie: all at row block `t`, column block `0`. -/
theorem idx_facts : ∀ t : Fin cfg0.N, win0_0.index t (0 : Fin 2) = win0_1.index t (0 : Fin 2) ∧ win0_0.index t (1 : Fin 2) = 0
    ∧ win0_1.index t (1 : Fin 2) = 0 ∧ win0_2.index t (0 : Fin 3) = win0_1.index t (0 : Fin 2) ∧ win0_2.index t (1 : Fin 3) = 0
    ∧ win0_2.index t (2 : Fin 3) = 0 ∧ win0_1.index t (0 : Fin 2) ≤ 15 :=
  (by decide +kernel : ∀ t : Fin grid0.N, _)

/-- Every row block is some point's. -/
theorem idx_onto : ∀ q0 : Fin 16, ∃ t : Fin cfg0.N, win0_1.index t (0 : Fin 2) = q0.val :=
  (by decide +kernel : ∀ q0 : Fin 16, ∃ t : Fin grid0.N, win0_1.index t (0 : Fin 2) = q0.val)

/-- Entry `(p, 5·q + 4)` of point `t`'s input block is the type id of slot `q` of the batch element in row `p` of the
    point's output block, whichever of the two outputs (`r`: that row in the whole array). -/
theorem block_tid (c : Dev nD) (t : Fin cfg0.N) (p : Fin 256) (q : Fin 64) (r : Fin 4096)
    (hr : r.val = win0_1.index t (0 : Fin 2) * 256 + 1 * p.val) :
    (iblk m c 0 t : Vec Ideal S256x320 .f32) (ix2 p (pick q)) = tid (m ((c : Thread nD τ).loc main_arg0)) r q := by
  obtain ⟨e0, e1, e2, e3, e4, e5, e6⟩ := idx_facts t
  show V m c main_v0 (((cfg0.win 0).blk t).view.emb (ix2 p (pick q))) = _
  rw [merged]
  refine shapeCast_apply _ _ _ (ix3 r q (4 : Fin 5)) ?_
  rw [Shape.rowMajor_val_three, Shape.rowMajor_val_two]
  show (r.val * 64 + q.val) * 5 + 4 = (win0_0.index t (0 : Fin 2) * 256 + 1 * p.val) * 320 + (win0_0.index t (1 : Fin 2) * 320 + 1 * (5 * q.val + 4))
  omega

/-! ## What a point writes back -/

/-- Point `t` writes back block `t` of `alphaG` of the input. -/
theorem flushed1_eq (c : Dev nD) (t : Fin cfg0.N) :
    (dats m 0 c).flushed 1 t = ((cfg0.win 1).blk t).view.read (Elt Ideal) (alphaG (m ((c : Thread nD τ).loc main_arg0))) := by
  rw [ValueP.flushed1]
  obtain ⟨e0, e1, e2, e3, e4, e5, e6⟩ := idx_facts t
  have key : ∀ j : S256x64.Idx, out0_1 (iblk m c 0 t) j = alphaG (m ((c : Thread nD τ).loc main_arg0)) (((cfg0.win 1).blk t).view.emb j) := by
    intro j
    obtain ⟨p, q, rfl⟩ : ∃ (p : Fin 256) (q : Fin 64), j = ix2 p q := ⟨j 0, j 1, eq_ix2 j⟩
    refine (alpha_block (iblk m c 0 t) p q).trans ?_
    have hq : (((cfg0.win 1).blk t).view.emb (ix2 p q)) 1 = q := Fin.ext (by show win0_1.index t (1 : Fin 2) * 64 + 1 * q.val = q.val; omega)
    rw [block_tid m c t p q ((((cfg0.win 1).blk t).view.emb (ix2 p q)) 0) rfl]
    unfold alphaG car goal player
    rw [hq]
  funext j
  exact key j

/-- Point `t` writes back block `t` of `pairG` of the input. -/
theorem flushed2_eq (c : Dev nD) (t : Fin cfg0.N) :
    (dats m 0 c).flushed 2 t = ((cfg0.win 2).blk t).view.read (Elt Ideal) (pairG (m ((c : Thread nD τ).loc main_arg0))) := by
  rw [ValueP.flushed2]
  obtain ⟨e0, e1, e2, e3, e4, e5, e6⟩ := idx_facts t
  have key : ∀ j : S256x64x64.Idx, out0_2 (iblk m c 0 t) j = pairG (m ((c : Thread nD τ).loc main_arg0)) (((cfg0.win 2).blk t).view.emb j) := by
    intro j
    obtain ⟨p, i, j', rfl⟩ : ∃ (p : Fin 256) (i j' : Fin 64), j = ix3 p i j' := ⟨j 0, j 1, j 2, eq_ix3 j⟩
    refine (pair_block (iblk m c 0 t) p i j').trans ?_
    have h1 : (((cfg0.win 2).blk t).view.emb (ix3 p i j')) 1 = i := Fin.ext (by show win0_2.index t (1 : Fin 3) * 64 + 1 * i.val = i.val; omega)
    have h2 : (((cfg0.win 2).blk t).view.emb (ix3 p i j')) 2 = j' := Fin.ext (by show win0_2.index t (2 : Fin 3) * 64 + 1 * j'.val = j'.val; omega)
    have h0 : ((((cfg0.win 2).blk t).view.emb (ix3 p i j')) 0).val = win0_1.index t (0 : Fin 2) * 256 + 1 * p.val := by
      show win0_2.index t (0 : Fin 3) * 256 + 1 * p.val = _
      omega
    rw [block_tid m c t p i ((((cfg0.win 2).blk t).view.emb (ix3 p i j')) 0) h0, block_tid m c t p j' ((((cfg0.win 2).blk t).view.emb (ix3 p i j')) 0) h0]
    unfold pairG car goal player
    rw [h1, h2]
  funext j
  exact key j

/-! ## The blocks tile the results -/

theorem mem_blk1 (t : Fin cfg0.N) (i : S4096x64.Idx) :
    i ∈ ((cfg0.win 1).blk t).view.set ↔ ∀ a : Fin 2, win0_1.index t a * S256x64.size a ≤ (i a).val ∧ (i a).val < win0_1.index t a * S256x64.size a + S256x64.size a := by
  show i ∈ ((View.whole main_v1_0).slice (win0_1.rect t)).set ↔ _
  rw [View.set_slice_whole, Rect.mem_set_unit]
  exact Iff.rfl

theorem mem_blk2 (t : Fin cfg0.N) (i : S4096x64x64.Idx) :
    i ∈ ((cfg0.win 2).blk t).view.set ↔ ∀ a : Fin 3, win0_2.index t a * S256x64x64.size a ≤ (i a).val ∧ (i a).val < win0_2.index t a * S256x64x64.size a + S256x64x64.size a := by
  show i ∈ ((View.whole main_v1_1).slice (win0_2.rect t)).set ↔ _
  rw [View.set_slice_whole, Rect.mem_set_unit]
  exact Iff.rfl

/-- Row `r` of the first result lies in the block of the point at row block `r / 256`. -/
theorem cover1 (i : S4096x64.Idx) : ∃ t : Fin cfg0.N, (cfg0.win 1).flush t = true ∧ i ∈ ((cfg0.win 1).blk t).view.set := by
  have hi0 : (i 0).val < 4096 := (i 0).isLt
  have hi1 : (i 1).val < 64 := (i 1).isLt
  obtain ⟨t, ht⟩ := idx_onto ⟨(i 0).val / 256, by omega⟩
  have ht' : win0_1.index t (0 : Fin 2) = (i 0).val / 256 := ht
  obtain ⟨e0, e1, e2, e3, e4, e5, e6⟩ := idx_facts t
  refine ⟨t, flush0_1 t, ?_⟩
  rw [mem_blk1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 64 ≤ (i 1).val ∧ (i 1).val < win0_1.index t (1 : Fin 2) * 64 + 64; omega

/-- The same for the second result. -/
theorem cover2 (i : S4096x64x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  have hi2 : (i 2).val < 64 := (i 2).isLt
  obtain ⟨t, ht⟩ := idx_onto ⟨(i 0).val / 256, by omega⟩
  have ht' : win0_1.index t (0 : Fin 2) = (i 0).val / 256 := ht
  obtain ⟨e0, e1, e2, e3, e4, e5, e6⟩ := idx_facts t
  refine ⟨t, flush0_2 t, ?_⟩
  rw [mem_blk2]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 64 ≤ (i 1).val ∧ (i 1).val < win0_2.index t (1 : Fin 3) * 64 + 64; omega
  | ⟨2, _⟩ => show win0_2.index t (2 : Fin 3) * 64 ≤ (i 2).val ∧ (i 2).val < win0_2.index t (2 : Fin 3) * 64 + 64; omega

/-! ## The arrays after the run -/

theorem final1 (c : Dev nD) : (dats m 0 c).arrAt 1 cfg0.N = alphaG (m ((c : Thread nD τ).loc main_arg0)) :=
  (dats m 0 c).arrAt_eq_of_cover 1 (alphaG (m ((c : Thread nD τ).loc main_arg0))) (fun t _ => flushed1_eq m c t) cover1

theorem final2 (c : Dev nD) : (dats m 0 c).arrAt 2 cfg0.N = pairG (m ((c : Thread nD τ).loc main_arg0)) :=
  (dats m 0 c).arrAt_eq_of_cover 2 (pairG (m ((c : Thread nD τ).loc main_arg0))) (fun t _ => flushed2_eq m c t) cover2

/-- The idealized kernel's run: it terminates with the first result at `alphaG` and the second at `pairG` of the
    input array, the input unchanged. -/
theorem run : θ_run defs (onTc (τ := τ) (main (F := Ideal))) ⟨m, fun _ => 0, ρ⟩ fun r => ∀ c : Dev nD,
      r.2.mem ((c : Thread nD τ).loc main_v1_0) = alphaG (m ((c : Thread nD τ).loc main_arg0))
      ∧ r.2.mem ((c : Thread nD τ).loc main_v1_1) = pairG (m ((c : Thread nD τ).loc main_arg0))
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (ValueP.run_blocks m ρ)

end Cert.KernelIdeal.Arrays

end
-- ==== Proof.RefArrays.lean ====
/-
  The idealized reference's two results, as functions of the input array.

  The reference slices field 4 out of every slot and drops the unit axis: that is the type id. Three comparisons and
  selects make the indicators; the first result is `2 · (0.6 · car + 0.3 · goal + 0.1 · player) − 1` slot by slot, literally the
  expression of `alphaG` (Proof/Spec.lean). The second result is built by broadcasting: `0.8 · player` along a new last axis
  and car (then goal) along a new middle axis, multiplied, the car product subtracted from zero and the goal product added.
  Read at an index `(b, i, j)` that is `(0 − (0.8 · player[b, i]) · car[b, j]) + (0.8 · player[b, i]) · goal[b, j]`, which
  `pairG_as_reference` identifies with `pairG`.
-/
import proofs.«152834_g5325759447573_cont_9to1_m_770_4_alg».proof.Proof.Gen.ReferenceIdeal.Read
import proofs.«152834_g5325759447573_cont_9to1_m_770_4_alg».proof.Proof.Spec
import Idealize.ShloMosaic.Lib.ValueIdx

noncomputable section

namespace Cert.ReferenceIdeal.Arrays

open Cert.ReferenceIdeal Cert.ReferenceIdeal.Gen Cert.ReferenceIdeal.Read Idealize.ShloMosaic Idealize.ShloMosaic.TcCoe
open Idealize.ShloMosaic.ValueIdx Cert.Bias

variable (x0 : (⟨S4096x64x5, .f32⟩ : BufTy).Contents (Elt Ideal))

/-- The slice of field 4, its unit axis dropped, is the type id. -/
theorem tid_read (i : S4096x64.Idx) : val_main_v1 (F := Ideal) x0 i = tid x0 (i 0) (i 1) := by
  rw [val_main_v1_apply, val_main_v0_apply]
  unfold tid
  refine congrArg x0 (funext fun a => Fin.ext ?_)
  have h0 : (i 0).val < 4096 := (i 0).isLt
  have h1 : (i 1).val < 64 := (i 1).isLt
  match a with
  | ⟨0, _⟩ => show ((i 0).val * 64 + (i 1).val) / 64 = (i 0).val; omega
  | ⟨1, _⟩ => show ((i 0).val * 64 + (i 1).val) / 1 % 64 = (i 1).val; omega
  | ⟨2, _⟩ => show 4 + 0 = 4; rfl

theorem car_read (i : S4096x64.Idx) : val_main_v4 (F := Ideal) x0 i = car x0 (i 0) (i 1) := by
  simp only [val_main_v4_apply, val_main_v3_apply, val_main_call0_v0_apply, val_main_call0_v1_apply, val_main_v2_apply,
    val_main_cst_apply, val_main_cst_0_apply, val_main_cst_1_apply, tid_read]
  rfl

theorem goal_read (i : S4096x64.Idx) : val_main_v7 (F := Ideal) x0 i = goal x0 (i 0) (i 1) := by
  simp only [val_main_v7_apply, val_main_v6_apply, val_main_call1_v0_apply, val_main_call1_v1_apply, val_main_v5_apply,
    val_main_cst_2_apply, val_main_cst_3_apply, val_main_cst_4_apply, tid_read]
  rfl

theorem player_read (i : S4096x64.Idx) : val_main_v10 (F := Ideal) x0 i = player x0 (i 0) (i 1) := by
  simp only [val_main_v10_apply, val_main_v9_apply, val_main_call2_v0_apply, val_main_call2_v1_apply, val_main_v8_apply,
    val_main_cst_5_apply, val_main_cst_6_apply, val_main_cst_7_apply, tid_read]
  rfl

/-- The reference's first result is `alphaG` of the input. -/
theorem alpha_read : val_main_v22 (F := Ideal) x0 = alphaG x0 := by
  funext i
  simp only [val_main_v22_apply, val_main_v20_apply, val_main_v21_apply, val_main_cst_12_apply, val_main_v19_apply,
    val_main_cst_11_apply, val_main_v18_apply, val_main_v15_apply, val_main_v17_apply, val_main_v16_apply,
    val_main_cst_10_apply, val_main_v12_apply, val_main_v14_apply, val_main_v11_apply, val_main_cst_8_apply,
    val_main_v13_apply, val_main_cst_9_apply, car_read, goal_read, player_read]
  rfl

/-- The reference's second result is `pairG` of the input. -/
theorem pair_read : val_main_v41 (F := Ideal) x0 = pairG x0 := by
  funext i
  rw [pairG_as_reference]
  simp only [val_main_v41_apply, val_main_v32_apply, val_main_v40_apply, val_main_v23_apply, val_main_cst_13_apply,
    val_main_v31_apply, val_main_v30_apply, val_main_v28_apply, val_main_v29_apply, val_main_v26_apply, val_main_v25_apply,
    val_main_cst_14_apply, val_main_v24_apply, val_main_v27_apply, val_main_v39_apply, val_main_v37_apply,
    val_main_v38_apply, val_main_v35_apply, val_main_v34_apply, val_main_cst_15_apply, val_main_v33_apply,
    val_main_v36_apply, car_read, goal_read, player_read]
  rfl

end Cert.ReferenceIdeal.Arrays

end
-- ==== Proof.lean ====
/-
  A batch of object slots [4096, 64, 5] is turned into a per-slot weight and a pairwise bias.

  Field 4 of a slot is its type id `t`; car, goal and player are the indicators of `t = 2`, `t = 3` and `t = 1`. Both
  programs return
    alpha[b, n]   = 2 · (0.6 · car[b, n] + 0.3 · goal[b, n] + 0.1 · player[b, n]) − 1        of shape [4096, 64]
    pair[b, i, j] = 0.8 · player[b, i] · (goal[b, j] − car[b, j])                             of shape [4096, 64, 64].
  The kernel works on 16 blocks of 256 batch elements, with the slot and field axes of the input merged into one of
  length 320; it extracts the type ids by multiplying the block with a 0/1 selection matrix that has its one of column
  `n` in row `5 · n + 4` (Proof/Selection.lean: every other term of the product is a product with zero), and writes
  `player_i · (0.8 · (goal_j − car_j))` for the pairwise bias. The reference slices field 4 directly and accumulates the
  bias as `(0 − (0.8 · player_i) · car_j) + (0.8 · player_i) · goal_j`. The two spellings agree because every indicator
  is `0` or `1` and `0.8`'s pattern denotes a finite real (Proof/Indicators.lean); alpha is spelt the same way on both
  sides. No step uses finiteness of the input: on the extended reals `x · 0 = 0` for every `x`, and the comparisons
  `t = 2`, `t = 3`, `t = 1` are the same on both sides whatever `t` is.

  Proof/Spec.lean states the two result functions `alphaG` and `pairG`; Proof/KernelArrays.lean shows the idealized
  kernel's arrays end at them (block by block, then by the tiling of the 16 blocks); Proof/RefArrays.lean shows the
  reference's two results are them. The ideal pass rewrote nothing in the kernel, so `preserves` has no conjunct.
-/
import proofs.«152834_g5325759447573_cont_9to1_m_770_4_alg».proof.Defs
import proofs.«152834_g5325759447573_cont_9to1_m_770_4_alg».proof.Proof.Gen.Kernel
import proofs.«152834_g5325759447573_cont_9to1_m_770_4_alg».proof.Proof.Gen.Kernel.Frame
import proofs.«152834_g5325759447573_cont_9to1_m_770_4_alg».proof.Proof.Gen.KernelIdeal
import proofs.«152834_g5325759447573_cont_9to1_m_770_4_alg».proof.Proof.Gen.KernelIdeal.Frame
import proofs.«152834_g5325759447573_cont_9to1_m_770_4_alg».proof.Proof.Gen.ReferenceIdeal
import proofs.«152834_g5325759447573_cont_9to1_m_770_4_alg».proof.Proof.Gen.Pre_finite_inputs
import proofs.«152834_g5325759447573_cont_9to1_m_770_4_alg».proof.Proof.Gen.ReferenceIdeal.Run
import proofs.«152834_g5325759447573_cont_9to1_m_770_4_alg».proof.Proof.Gen.ReferenceIdeal.Read
import proofs.«152834_g5325759447573_cont_9to1_m_770_4_alg».proof.Proof.KernelArrays
import proofs.«152834_g5325759447573_cont_9to1_m_770_4_alg».proof.Proof.RefArrays
import Idealize.ShloMosaic.Adequacy
import Idealize.ShloMosaic.Init

noncomputable section

namespace Cert.Proof

open Idealize.ShloMosaic Idealize.SL.Sem

/-- The word-level kernel terminates without a fault and leaves its input as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with the weight array at `alphaG` and the bias array at `pairG` of the (shared) input. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [hagree c]
    exact (Cert.ReferenceIdeal.Read.val_main_v22_eq _).trans (Cert.ReferenceIdeal.Arrays.alpha_read _)
  · rw [hagree c]
    exact (Cert.ReferenceIdeal.Read.val_main_v41_eq _).trans (Cert.ReferenceIdeal.Arrays.pair_read _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
